-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1000 : Shape := ⟨2, ![4096, 1000]⟩
abbrev S_ : Shape := ⟨0, ![]⟩

class Facts : Prop where
  bcast_S_S4096x1000 : S_.BroadcastsInDim S4096x1000 (![] : Fin 0 → Fin S4096x1000.rank)
  reducesTo_S4096x1000_S_d0_1 : S4096x1000.ReducesTo [0, 1] S_
  h_S_ : 0 < S_.numel

variable [Facts]

def fn {F : FTy → Type} [FloatOps F] (main_arg0 : FVec F S4096x1000 .f32) (main_arg1 : FVec F S4096x1000 .f32) : IVec S_ 1 :=
  let main_v0 : FVec F S4096x1000 .f32 := Host.absf main_arg0
  let main_cst : FVec F S_ .f32 := constant S_ .f32 0x7F800000#32
  let main_v1 : FVec F S4096x1000 .f32 := broadcastInDim S4096x1000 ![] bcast_S_S4096x1000 main_cst
  let main_v2 : IVec S4096x1000 1 := cmpf .olt main_v0 main_v1
  let main_c : IVec S_ 1 := constantI S_ 1 1#1
  let main_v3 : IVec S_ 1 := (fun x v => Host.reduce IntOp.andi x v reducesTo_S4096x1000_S_d0_1 h_S_) main_v2 main_c
  let main_v4 : FVec F S4096x1000 .f32 := Host.absf main_arg1
  let main_cst_0 : FVec F S_ .f32 := constant S_ .f32 0x7F800000#32
  let main_v5 : FVec F S4096x1000 .f32 := broadcastInDim S4096x1000 ![] bcast_S_S4096x1000 main_cst_0
  let main_v6 : IVec S4096x1000 1 := cmpf .olt main_v4 main_v5
  let main_c_1 : IVec S_ 1 := constantI S_ 1 1#1
  let main_v7 : IVec S_ 1 := (fun x v => Host.reduce IntOp.andi x v reducesTo_S4096x1000_S_d0_1 h_S_) main_v6 main_c_1
  let main_v8 : IVec S_ 1 := andi main_v3 main_v7
  main_v8
-- ==== Kernel.lean ====
abbrev S4096x1000 : Shape := ⟨2, ![4096, 1000]⟩
abbrev S1x1 : Shape := ⟨2, ![1, 1]⟩
abbrev S1024x1000 : Shape := ⟨2, ![1024, 1000]⟩
abbrev S1x1024x1000 : Shape := ⟨3, ![1, 1024, 1000]⟩
abbrev S1 : Shape := ⟨1, ![1]⟩
abbrev S1x1x1 : Shape := ⟨3, ![1, 1, 1]⟩
abbrev S_ : Shape := ⟨0, ![]⟩

abbrev nBuf : Space → Nat
  | .hbm => 4
  | .vmem => 6
  | .smem => 0
  | _ => 0

abbrev bufTy : (tb : Table) → Fin (tcTables nBuf tb) → BufTy
  | .hbm, ⟨0, _⟩ => ⟨S4096x1000, .f32⟩
  | .hbm, ⟨1, _⟩ => ⟨S4096x1000, .f32⟩
  | .hbm, ⟨2, _⟩ => ⟨S1x1, .f32⟩
  | .hbm, ⟨3, _⟩ => ⟨S_, .f32⟩
  | .local _ .vmem, ⟨0, _⟩ => ⟨S1024x1000, .f32⟩
  | .local _ .vmem, ⟨1, _⟩ => ⟨S1024x1000, .f32⟩
  | .local _ .vmem, ⟨2, _⟩ => ⟨S1024x1000, .f32⟩
  | .local _ .vmem, ⟨3, _⟩ => ⟨S1024x1000, .f32⟩
  | .local _ .vmem, ⟨4, _⟩ => ⟨S1x1, .f32⟩
  | .local _ .vmem, ⟨5, _⟩ => ⟨S1x1, .f32⟩
  | _, _ => ⟨S4096x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v17 : BitVec 1 := Scalar.cmpi .eq arg0 c3_i32
  let v18 : BitVec 32 := Scalar.extui v17
  let c0_i32_8 : BitVec 32 := 0#32
  let v19 : BitVec 1 := Scalar.cmpi .ne v18 c0_i32_8
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x1000_S1024x1000_0_0 : ∀ a, (![0, 0] : Fin 2 → Nat) a + S1024x1000.size a ≤ S1024x1000.size a
  h_S1024x1000 : 0 < S1024x1000.numel
  shapeCasts_S1024x1000_S1x1024x1000 : S1024x1000.ShapeCasts S1x1024x1000
  reduces_S1x1024x1000_S1 : S1x1024x1000.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1000.size a ≤ S4096x1000.size a
  hwx0_0 : ∀ i : grid0.Coords, EltTy.bits .f32 = 32 ∨ (Rect.block (s := S4096x1000) S1024x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1000.size a ≤ S4096x1000.size a
  hwx0_1 : ∀ i : grid0.Coords, EltTy.bits .f32 = 32 ∨ (Rect.block (s := S4096x1000) S1024x1000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S1024x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x1000 : Shape := ⟨2, ![4096, 1000]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1000, .f32⟩
  | .hbm, ⟨1, _⟩ => ⟨S4096x1000, .f32⟩
  | .hbm, ⟨2, _⟩ => ⟨S4096x1000, .f32⟩
  | .hbm, ⟨3, _⟩ => ⟨S4096x1000, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | _, _ => ⟨S4096x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  reducesTo_S4096x1000_S_d0_1 : S4096x1000.ReducesTo [0, 1] S_
  h_S_ : 0 < S_.numel

variable [Facts₀]

class Facts : Prop extends Facts₀ where

variable [Facts]
-- ==== Proof.TileBody.lean ====
/-
  What one run of the body leaves behind, read as values.

  The body keeps a running sum in a one-entry scratch cell. At the first tile it first stores zero there; at every
  tile it then replaces the cell by (the cell) + (the tile's total of t · log s); at the last tile it finally
  stores 0 - (the cell) / 4096 into the one-entry output block. So after a run the scratch cell holds the update
  `acc ↦ acc + tileTotal` applied to what it held before (to zero at the first tile), and at the last tile the
  output block holds the closing expression of the scratch cell's NEW contents. These four facts, one per stored
  value, hold at any float instance: they only say which stored value reads which earlier one.
-/
import proofs.«175357_j41652592836938_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.TileBody

open Cert.KernelIdeal Cert.KernelIdeal.Gen

variable {F : FTy → Type} [FloatOps F]

/-- Every buffer is read and written whole, from its corner. -/
theorem origin : (![0, 0] : Fin 2 → Nat) = fun _ => 0 := funext fun a => by fin_cases a <;> rfl

/-- FIRST TILE. The scratch cell ends at the update applied to the zero just stored: the update's load of the cell
    reads back the reset, which the later store of the update then covers. -/
theorem scratch_first (c : Dev nD) (i : grid0.Coords) (a1 : Memref sig .tc .vmem S1024x1000 .f32) (h1 : a1.IsWhole)
    (a2 : Memref sig .tc .vmem S1024x1000 .f32) (h2 : a2.IsWhole) (a3 : Memref sig .tc .vmem S1x1 .f32) (h3 : a3.IsWhole)
    (a4 : Memref sig .tc .vmem S1x1 .f32) (h4 : a4.IsWhole) (hc0 : cond0_0 i) (hc1 : ¬cond0_1 i)
    (x0 x1 : Vec F S1024x1000 .f32) :
    sout0_A_0 c i a1 h1 a2 h2 a3 h3 a4 h4 hc0 hc1 x0 x1 = k0_pay2 x0 x1 k0_pay1 := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1) origin, View.readCov_unit_zero (S := S1x1) _ origin]
  simp only [View.readAt_eq_ld, h1.read_unread, h2.read_unread, View.ld_unit_zero (S := S1024x1000) origin]

/-- A MIDDLE TILE. The scratch cell ends at the update applied to what it held on entry. -/
theorem scratch_mid (c : Dev nD) (i : grid0.Coords) (a1 : Memref sig .tc .vmem S1024x1000 .f32) (h1 : a1.IsWhole)
    (a2 : Memref sig .tc .vmem S1024x1000 .f32) (h2 : a2.IsWhole) (a3 : Memref sig .tc .vmem S1x1 .f32) (h3 : a3.IsWhole)
    (a4 : Memref sig .tc .vmem S1x1 .f32) (h4 : a4.IsWhole) (hc0 : ¬cond0_0 i) (hc1 : ¬cond0_1 i)
    (x0 x1 : Vec F S1024x1000 .f32) (xs0 : Vec F S1x1 .f32) :
    sout0_B_0 c i a1 h1 a2 h2 a3 h3 a4 h4 hc0 hc1 x0 x1 xs0 = k0_pay2 x0 x1 xs0 := by
  unfold sout0_B_0
  rw [View.read_writes_eq_canon _ _ _ (scover0_B_0 c i a1 h1 a2 h2 a3 h3 a4 h4 hc0 hc1 x0 x1 xs0)]
  unfold kernelRun0_B
  dsimp only
  sl_unfold_words
  rw [View.canon_unit_zero origin]
  simp only [View.readAt_eq_ld, h1.read_unread, h2.read_unread, h4.read_unread,
    View.ld_unit_zero (S := S1024x1000) origin, View.ld_unit_zero (S := S1x1) origin]

/-- THE LAST TILE. The scratch cell is updated as at a middle tile … -/
theorem scratch_last (c : Dev nD) (i : grid0.Coords) (a1 : Memref sig .tc .vmem S1024x1000 .f32) (h1 : a1.IsWhole)
    (a2 : Memref sig .tc .vmem S1024x1000 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S1024x1000 .f32) (xs0 : Vec F S1x1 .f32) :
    sout0_C_0 c i a1 h1 a2 h2 a3 h3 a4 h4 hc0 hc1 x0 x1 xs0 = k0_pay2 x0 x1 xs0 := by
  unfold sout0_C_0
  rw [View.read_writes_eq_canon _ _ _ (scover0_C_0 c i a1 h1 a2 h2 a3 h3 a4 h4 hc0 hc1 x0 x1 xs0)]
  unfold kernelRun0_C
  dsimp only
  sl_unfold_words
  rw [View.canon_unit_zero origin]
  simp only [View.readAt_eq_ld, h1.read_unread, h2.read_unread, h4.read_unread,
    View.ld_unit_zero (S := S1024x1000) origin, View.ld_unit_zero (S := S1x1) origin]

/-- … and the output block receives the closing expression of the cell's updated contents: its load of the cell
    reads back the update just stored. -/
theorem out_last (c : Dev nD) (i : grid0.Coords) (a1 : Memref sig .tc .vmem S1024x1000 .f32) (h1 : a1.IsWhole)
    (a2 : Memref sig .tc .vmem S1024x1000 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S1024x1000 .f32) (xs0 : Vec F S1x1 .f32) :
    out0_C_2 c i a1 h1 a2 h2 a3 h3 a4 h4 hc0 hc1 x0 x1 xs0 = k0_pay3 (k0_pay2 x0 x1 xs0) := by
  unfold out0_C_2
  rw [View.read_writes_eq_canon _ _ _ (cover0_C_2 c i a1 h1 a2 h2 a3 h3 a4 h4 hc0 hc1 x0 x1 xs0)]
  unfold kernelRun0_C
  dsimp only
  sl_unfold_words
  rw [View.canon_unit_zero origin, View.readCov_unit_zero (S := S1x1) _ origin]
  simp only [View.readAt_eq_ld, h1.read_unread, h2.read_unread, h4.read_unread,
    View.ld_unit_zero (S := S1024x1000) origin, View.ld_unit_zero (S := S1x1) origin]

end Cert.KernelIdeal.TileBody

end
-- ==== Proof.RunningSum.lean ====
/-
  The kernel's run, read as values, at any float instance.

  Across the four tiles the scratch cell carries a running value: the first tile applies its update to the zero it
  has just stored, every later tile applies its update to what the tile before left (`accAfter`, `scratch_eq`: an
  induction on the tile). The output's one-entry block is stored only at the last tile, with the closing expression
  of the cell's final contents (`out_eq`), and is written back only there; that block is the whole one-entry result
  array (`final_cell`). After the region the host views that array as a scalar (`result_eq`). `run` states the
  kernel's run with the scalar result named by those expressions and the argument arrays unchanged.
-/
import proofs.«175357_j41652592836938_1_alg».proof.Proof.TileBody
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.KernelIdeal.RunningSum

open Cert.KernelIdeal Cert.KernelIdeal.Gen Idealize.ShloMosaic.ValueIdx

variable {F : FTy → Type} [FloatOps F]
variable (m : (ℓ : Loc nD τ sig) → Buf (Elt F) ℓ) (ρ : Dev nD → PrngReg)

/-- Tile `t` of the student's probabilities (the first argument), as the region finds it. -/
abbrev sTile (c : Dev nD) (t : Fin cfg0.N) : Vec F S1024x1000 .f32 := iblk m c 0 t
/-- Tile `t` of the teacher's weights (the second argument). -/
abbrev tTile (c : Dev nD) (t : Fin cfg0.N) : Vec F S1024x1000 .f32 := iblk m c 1 t

/-- The scratch cell after tile `n`: the update of tile 0 applied to the zero the first tile stores, then the
    update of each later tile applied to what the tile before left. -/
def accAfter (c : Dev nD) : (n : ℕ) → n < cfg0.N → Vec F S1x1 .f32
  | 0, h => k0_pay2 (sTile m c ⟨0, h⟩) (tTile m c ⟨0, h⟩) k0_pay1
  | n + 1, h => k0_pay2 (sTile m c ⟨n + 1, h⟩) (tTile m c ⟨n + 1, h⟩) (accAfter c n (Nat.lt_of_succ_lt h))

/-- What the run leaves in the scratch cell after tile `n` is that running value: by induction on the tile, the
    tile's case (first, middle, last) read off its position. -/
theorem scratch_eq (c : Dev nD) : ∀ (n : ℕ) (h : n < cfg0.N), (outsAt0 m c n h).2 = accAfter m c n h
  | 0, h => by
    rw [outsAt0_A m c ⟨0, h⟩ rfl (by dsimp only; omega)]
    dsimp only
    exact TileBody.scratch_first c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) scM0_0 (Memref.isWhole_whole _) _ _ (iblk m c 0 ⟨0, h⟩) (iblk m c 1 ⟨0, h⟩)
  | n + 1, h => by
    have hN : cfg0.N = 4 := N_0
    have h0 : ¬(⟨n + 1, h⟩ : Fin cfg0.N).val % 4 = 0 := by dsimp only; omega
    by_cases h1 : (⟨n + 1, h⟩ : Fin cfg0.N).val % 4 = 3
    · rw [outsAt0_C m c ⟨n + 1, h⟩ h0 h1]
      dsimp only
      refine (TileBody.scratch_last c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) scM0_0 (Memref.isWhole_whole _) _ _ (iblk m c 0 ⟨n + 1, h⟩) (iblk m c 1 ⟨n + 1, h⟩)
        (outsAt0 m c n (Nat.lt_of_succ_lt h)).2).trans ?_
      show k0_pay2 _ _ (outsAt0 m c n _).2 = k0_pay2 _ _ (accAfter m c n _)
      rw [scratch_eq c n]
    · rw [outsAt0_B m c ⟨n + 1, h⟩ h0 h1]
      dsimp only
      refine (TileBody.scratch_mid c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) scM0_0 (Memref.isWhole_whole _) _ _ (iblk m c 0 ⟨n + 1, h⟩) (iblk m c 1 ⟨n + 1, h⟩)
        (outsAt0 m c n (Nat.lt_of_succ_lt h)).2).trans ?_
      show k0_pay2 _ _ (outsAt0 m c n _).2 = k0_pay2 _ _ (accAfter m c n _)
      rw [scratch_eq c n]

/-- The last tile is tile 3. -/
theorem three_lt : 3 < cfg0.N := by rw [show cfg0.N = 4 from N_0]; decide

/-- The one-entry result block: the closing expression of the scratch cell after the last tile. -/
abbrev lossCell (c : Dev nD) : Buf (Elt F) ((c : Thread nD τ).loc main_v0) := k0_pay3 (accAfter m c 3 three_lt)

/-- At the last tile the output's staging block receives exactly that. -/
theorem out_eq (c : Dev nD) : (outsAt0 m c 3 three_lt).1 = lossCell m c := by
  have h0 : ¬(⟨3, three_lt⟩ : Fin cfg0.N).val % 4 = 0 := by decide
  have h1 : (⟨3, three_lt⟩ : Fin cfg0.N).val % 4 = 3 := by decide
  rw [outsAt0_C m c ⟨3, three_lt⟩ h0 h1]
  dsimp only
  refine (TileBody.out_last c (grid0.coords ⟨3, three_lt⟩) (ms0_0 ⟨3, three_lt⟩) (hs0_0 ⟨3, three_lt⟩) (ms0_1 ⟨3, three_lt⟩) (hs0_1 ⟨3, three_lt⟩)
    (ms0_2 ⟨3, three_lt⟩) (hs0_2 ⟨3, three_lt⟩) scM0_0 (Memref.isWhole_whole _) _ _ (iblk m c 0 ⟨3, three_lt⟩) (iblk m c 1 ⟨3, three_lt⟩)
    (outsAt0 m c 2 (Nat.lt_of_succ_lt three_lt)).2).trans ?_
  show k0_pay3 (k0_pay2 _ _ (outsAt0 m c 2 _).2) = k0_pay3 (k0_pay2 _ _ (accAfter m c 2 _))
  rw [scratch_eq m c 2]

/-- A one-entry block has a single position. -/
instance cell_subsingleton : Subsingleton S1x1.Idx := ⟨fun a b => funext fun d => Fin.ext (by
  match d with
  | ⟨0, _⟩ => show (a 0).val = (b 0).val; have := idx2_lt0 a; have := idx2_lt0 b; omega
  | ⟨1, _⟩ => show (a 1).val = (b 1).val; have := idx2_lt1 a; have := idx2_lt1 b; omega)⟩

/-- The only write-back is after the last tile, and it writes that block. -/
theorem flushed_eq (c : Dev nD) (t : Fin cfg0.N) (hf : (cfg0.win 2).flush t = true) :
    (dats m 0 c).flushed 2 t = ((cfg0.win 2).blk t).view.read (Elt F) (lossCell m c) := by
  have hN : cfg0.N = 4 := N_0
  have h3 : t.val = 3 := by have := (flush0_2 t).mp hf; have := t.isLt; omega
  obtain rfl : t = ⟨3, three_lt⟩ := Fin.ext h3
  show (cfg0.win 2).cut (grid0.coords ⟨3, three_lt⟩) ((dats m 0 c).after 2 ⟨3, three_lt⟩) = _
  rw [after0_2]
  show (cfg0.win 2).cut _ (outsAt0 m c 3 three_lt).1 = _
  rw [out_eq]
  funext y
  rw [View.read_apply]
  refine Eq.trans ?_ (cast_eq _ _).symm
  exact congrArg (lossCell m c) (cell_subsingleton.elim _ _)

/-- The output's block sits at the array's corner and is one entry in each direction, at every tile. -/
theorem cell_block : ∀ (t : Fin cfg0.N) (a : Fin 2), win0_2.index t a * win0_2.size a = 0 ∧ win0_2.xsize (grid0.coords t) a = 1 :=
  (by decide +kernel : ∀ (t : Fin grid0.N) (a : Fin 2), win0_2.index t a * win0_2.size a = 0 ∧ win0_2.xsize (grid0.coords t) a = 1)

/-- So the one-entry result array ends holding it: the last tile's block is the whole array. -/
theorem final_cell (c : Dev nD) : (dats m 0 c).arrAt 2 cfg0.N = lossCell m c :=
  (dats m 0 c).arrAt_eq_of_cover 2 (lossCell m c) (flushed_eq m c) fun i =>
    ⟨⟨3, three_lt⟩, (flush0_2 ⟨3, three_lt⟩).mpr rfl, by
      show i ∈ ((View.whole main_v0).slice (win0_2.rect ⟨3, three_lt⟩)).set
      rw [View.set_slice_whole, Rect.mem_set_unit]
      intro a
      obtain ⟨e0, e1⟩ := cell_block ⟨3, three_lt⟩ a
      rw [e0, e1]
      have : (i a : Nat) < 1 := by
        match a with
        | ⟨0, _⟩ => exact idx2_lt0 i
        | ⟨1, _⟩ => exact idx2_lt1 i
      omega⟩

/-- After the region the host views the one-entry array as a scalar. -/
theorem result_eq (c : Dev nD) :
    Pipeline.afterTail₀ cfgs (dats m) 0 (V0 m) [hostOps1] c main_v1 = shapeCast S_ (lossCell m c) shapeCasts_S1x1_S_ := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.devRef .tc main_v0)
      = lossCell m c :=
    (Pipeline.withArrays_arr spec0 launch0.win.arr_inj c _ _ 2).trans (final_cell m c)
  rw [e]
  rfl

/-- THE KERNEL'S RUN, READ. Every weakly fair execution ends with the scalar result at the one-entry block viewed as
    a scalar, and the two argument arrays as they were. -/
theorem run : θ_run defs (onTc (τ := τ) (main (F := F))) ⟨m, fun _ => 0, ρ⟩ fun r => ∀ c : Dev nD,
      r.2.mem ((c.tc : Thread nD τ).loc main_v1) = shapeCast S_ (lossCell m c) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v1 (Pipeline.mem_restRefs_of main_v1 rfl (fun w => by fin_cases w <;> decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.RunningSum

end
-- ==== Proof.LossSpec.lean ====
/-
  The soft-label cross-entropy of a batch, and the arithmetic that lets it be added up tile by tile.

  For a batch of 4096 rows of 1000 classes, student probabilities `s` and teacher weights `t`, the loss is
      L(s, t) = -( (∑ over all (b, c) of t[b,c] · log s[b,c]) / 4096 ).
  On the extended reals addition is commutative and associative everywhere (the infinities included), so the
  total may be taken in any grouping: here as four tiles of 1024 consecutive rows, each tile's total added in
  turn onto a running sum that starts at zero. No finiteness of the entries is needed for that.
-/
import Idealize.ShloMosaic.PureOps.Ideal.Laws
import Idealize.ShloMosaic.Lib.ValueIdx

noncomputable section

open scoped BigOperators

namespace SoftLabelLoss

open Idealize.ShloMosaic Idealize.ShloMosaic.ValueIdx

/-- The batch: 4096 rows of 1000 classes. -/
abbrev Batch : Shape := ⟨2, ![4096, 1000]⟩
/-- One tile: 1024 consecutive rows. -/
abbrev Tile : Shape := ⟨2, ![1024, 1000]⟩

/-- The divisor 4096.0 as both programs spell it (the same word on both sides, never evaluated). -/
abbrev batchSize : EReal := Ideal.ofBits .f32 0x45800000#32

/-- One entry's contribution: the teacher's weight times the logarithm of the student's probability. -/
def term (s t : EReal) : EReal := t * Ideal.log s

/-- The total of the contributions of every entry of the batch. -/
def total (s t : Batch.Idx → EReal) : EReal := ∑ i : Batch.Idx, term (s i) (t i)

/-- The loss: minus the total divided by the batch size. -/
def loss (s t : Batch.Idx → EReal) : EReal := -(Ideal.div (total s t) batchSize)

/-- Row `r` of tile `k` is row `1024·k + r` of the batch. -/
def tileRow (k : Fin 4) (r : Fin 1024) : Fin 4096 := ⟨1024 * k.val + r.val, by omega⟩

@[simp] theorem tileRow_val (k : Fin 4) (r : Fin 1024) : (tileRow k r).val = 1024 * k.val + r.val := rfl

/-- A sum over the 4096 rows is the sum, over the four tiles, of the sums over each tile's 1024 rows:
    every row is row `r` of tile `k` for exactly one `(k, r)`. -/
theorem sum_rows_by_tile {M : Type*} [AddCommMonoid M] (g : Fin 4096 → M) :
    ∑ p, g p = ∑ k : Fin 4, ∑ r : Fin 1024, g (tileRow k r) := by
  rw [← Fintype.sum_prod_type']
  refine (Fintype.sum_equiv (finProdFinEquiv (m := 4) (n := 1024)) (fun x => g (tileRow x.1 x.2)) g fun x => ?_).symm
  refine congrArg g (Fin.ext ?_)
  rw [tileRow_val, finProdFinEquiv_apply_val]
  omega

/-- The same over the batch's index set: entry `(1024·k + r, c)` is entry `(r, c)` of tile `k`. -/
theorem sum_batch_by_tile {M : Type*} [AddCommMonoid M] (f : Batch.Idx → M) :
    ∑ i : Batch.Idx, f i = ∑ k : Fin 4, ∑ j : Tile.Idx, f (ix2 (tileRow k (j 0)) (j 1)) := by
  rw [sum_idx2, sum_rows_by_tile]
  refine Finset.sum_congr rfl fun k _ => ?_
  rw [sum_idx2]

/-- Adding four numbers one after another onto zero gives their sum. -/
theorem fold_four {M : Type*} [AddCommMonoid M] (b : Fin 4 → M) : (((0 + b 0) + b 1) + b 2) + b 3 = ∑ k, b k := by
  rw [Fin.sum_univ_four, zero_add]

/-- A vector viewed at another shape with the same number of entries has the same total: the view only
    renames the positions, one to one. -/
theorem sum_shapeCast {s t : Shape} {M : Type} [AddCommMonoid M] (x : s.Idx → M) (h : s.ShapeCasts t) :
    ∑ j : t.Idx, shapeCast t x h j = ∑ k : s.Idx, x k :=
  Equiv.sum_comp (Shape.reshapeEquiv h) x

/-- Subtracting from zero is negation, on every extended real. -/
theorem zero_sub_ereal (x : EReal) : (0 : EReal) - x = -x := zero_sub x

end SoftLabelLoss

end
-- ==== Proof.LossValue.lean ====
/-
  The kernel's result, at the extended reals, is the loss.

  Read at the extended reals the body's three stored values are: the reset, zero; the update, the cell plus the total
  over the tile of (teacher's weight) · log (student's probability); the closing expression, zero minus the cell
  divided by 4096.0. A tile's entry (r, c) is the array's entry (1024·k + r, c). So after the fourth tile the cell
  holds zero plus the four tiles' totals added in turn, which is the total over every entry of the batch (addition
  on the extended reals is commutative and associative at the infinities too, so no entry need be finite), and the
  result is minus that total divided by 4096.0: the loss.
-/
import proofs.«175357_j41652592836938_1_alg».proof.Proof.RunningSum
import proofs.«175357_j41652592836938_1_alg».proof.Proof.LossSpec
import Idealize.ShloMosaic.PureOps.Ideal.Laws
import Idealize.ShloMosaic.Lib.ValueIdx
import Idealize.ShloMosaic.Lib.Pipeline.Value

noncomputable section

open scoped BigOperators
open Idealize.ShloMosaic Idealize.ShloMosaic.TcCoe Idealize.SL.Sem

namespace Cert.KernelIdeal.LossValue

open Cert.KernelIdeal Cert.KernelIdeal.Gen Cert.KernelIdeal.RunningSum SoftLabelLoss Idealize.ShloMosaic.ValueIdx

/-- The reset stores zero. -/
theorem reset_apply (y : S1x1.Idx) : k0_pay1 (F := Ideal) y = 0 := by
  unfold k0_pay1
  rw [shapeCast_self]
  exact Ideal.ofBits_zero_f32

/-- The closing expression: zero minus the cell divided by the batch size. -/
theorem closing_apply (v : Vec Ideal S1x1 .f32) (y : S1x1.Idx) :
    k0_pay3 (F := Ideal) v y = 0 - Ideal.div (v y) batchSize := by
  unfold k0_pay3
  show Ideal.ofBits .f32 0x00000000#32 - Ideal.div (v y) (Ideal.ofBits .f32 0x45800000#32) = _
  rw [Ideal.ofBits_zero_f32]

/-- A vector viewed at another shape, read at a position, is the vector at the matching position. -/
theorem shapeCast_at {s t : Shape} {α : Type} (x : s.Idx → α) (h : s.ShapeCasts t) (j : t.Idx) :
    shapeCast t x h j = x (Shape.reshapeEquiv h j) := rfl

/-- The update: the cell plus the total, over the tile, of the teacher's weight times the logarithm of the
    student's probability. The body takes that total by viewing the product tile with a leading unit axis and
    reducing its two long axes into a single entry: a reduction into one entry is the sum over every position, and the
    view keeps the total. -/
theorem update_apply (sb tb : Vec Ideal S1024x1000 .f32) (acc : Vec Ideal S1x1 .f32) (y : S1x1.Idx) :
    k0_pay2 (F := Ideal) sb tb acc y = acc y + ∑ j : S1024x1000.Idx, term (sb j) (tb j) := by
  unfold k0_pay2
  rw [shapeCast_self, addf_apply, broadcast_apply]
  refine congrArg (fun z => acc y + z) ?_
  unfold extractAt
  rw [shapeCast_at]
  refine (Ideal.multiReduction_add_total _ _ reduces_S1x1024x1000_S1 (fun b => by fin_cases b; rfl) _ _ _).trans ?_
  rw [sum_shapeCast]
  exact Finset.sum_congr rfl fun j _ => rfl

variable (m : (ℓ : Loc nD τ sig) → Buf (Elt Ideal) ℓ)

/-- Where the two input windows' blocks sit: tile `t` starts at row block `t`, column block 0. -/
theorem tile_index : ∀ t : Fin cfg0.N, (win0_0.index t 0 = t.val ∧ win0_0.index t 1 = 0) ∧ (win0_1.index t 0 = t.val ∧ win0_1.index t 1 = 0) :=
  (by decide +kernel : ∀ t : Fin grid0.N, (win0_0.index t 0 = t.val ∧ win0_0.index t 1 = 0) ∧ (win0_1.index t 0 = t.val ∧ win0_1.index t 1 = 0))

/-- Entry `(r, c)` of the student's tile `k` is entry `(1024·k + r, c)` of the student's array: a block's
    coordinate is the block's index times its extent plus the coordinate inside the block. -/
theorem sTile_apply (c : Dev nD) (t : Fin cfg0.N) (k : Fin 4) (hk : t.val = k.val) (j : S1024x1000.Idx) :
    sTile m c t j = m ((c : Thread nD τ).loc main_arg0) (ix2 (tileRow k (j 0)) (j 1)) := by
  unfold sTile iblk
  rw [View.read_apply]
  refine (cast_eq _ _).trans ?_
  show m ((c : Thread nD τ).loc main_arg0) (((cfg0.win 0).blk t).view.emb j) = _
  refine congrArg (m ((c : Thread nD τ).loc main_arg0)) (funext fun a => Fin.ext ?_)
  obtain ⟨⟨e0, e1⟩, -⟩ := tile_index t
  match a with
  | ⟨0, _⟩ => show win0_0.index t 0 * 1024 + 1 * (j 0).val = 1024 * k.val + (j 0).val; rw [e0, hk]; omega
  | ⟨1, _⟩ => show win0_0.index t 1 * 1000 + 1 * (j 1).val = (j 1).val; rw [e1]; omega

/-- The same for the teacher's tile and array. -/
theorem tTile_apply (c : Dev nD) (t : Fin cfg0.N) (k : Fin 4) (hk : t.val = k.val) (j : S1024x1000.Idx) :
    tTile m c t j = m ((c : Thread nD τ).loc main_arg1) (ix2 (tileRow k (j 0)) (j 1)) := by
  unfold tTile iblk
  rw [View.read_apply]
  refine (cast_eq _ _).trans ?_
  show m ((c : Thread nD τ).loc main_arg1) (((cfg0.win 1).blk t).view.emb j) = _
  refine congrArg (m ((c : Thread nD τ).loc main_arg1)) (funext fun a => Fin.ext ?_)
  obtain ⟨-, ⟨e0, e1⟩⟩ := tile_index t
  match a with
  | ⟨0, _⟩ => show win0_1.index t 0 * 1024 + 1 * (j 0).val = 1024 * k.val + (j 0).val; rw [e0, hk]; omega
  | ⟨1, _⟩ => show win0_1.index t 1 * 1000 + 1 * (j 1).val = (j 1).val; rw [e1]; omega

/-- The total contribution of the rows of tile `k`, read off the two whole arrays. -/
def tileSum (c : Dev nD) (k : Fin 4) : EReal :=
  ∑ j : Tile.Idx, term (m ((c : Thread nD τ).loc main_arg0) (ix2 (tileRow k (j 0)) (j 1)))
    (m ((c : Thread nD τ).loc main_arg1) (ix2 (tileRow k (j 0)) (j 1)))

/-- What the update adds at tile `t` is that tile's total. -/
theorem tile_total (c : Dev nD) (t : Fin cfg0.N) (k : Fin 4) (hk : t.val = k.val) :
    ∑ j : S1024x1000.Idx, term (sTile m c t j) (tTile m c t j) = tileSum m c k :=
  Finset.sum_congr rfl fun j _ => by rw [sTile_apply m c t k hk, tTile_apply m c t k hk]

/-- After tile 0 the scratch cell holds zero plus that tile's total. -/
theorem acc_zero (c : Dev nD) (h : 0 < cfg0.N) (y : S1x1.Idx) : accAfter m c 0 h y = 0 + tileSum m c 0 := by
  rw [accAfter, update_apply, reset_apply, tile_total m c ⟨0, h⟩ 0 rfl]

/-- After a later tile it holds what the tile before left plus this tile's total. -/
theorem acc_step (c : Dev nD) (n : ℕ) (h : n + 1 < cfg0.N) (k : Fin 4) (hk : n + 1 = k.val) (y : S1x1.Idx) :
    accAfter m c (n + 1) h y = accAfter m c n (Nat.lt_of_succ_lt h) y + tileSum m c k := by
  rw [accAfter, update_apply, tile_total m c ⟨n + 1, h⟩ k hk]

/-- After the last tile the scratch cell holds the total over the whole batch: zero, then the four tiles' totals
    added in turn, which is their sum, which is the sum over every entry of the batch. -/
theorem acc_last (c : Dev nD) (y : S1x1.Idx) :
    accAfter m c 3 three_lt y = total (m ((c : Thread nD τ).loc main_arg0)) (m ((c : Thread nD τ).loc main_arg1)) := by
  have e : accAfter m c 3 three_lt y = (((0 + tileSum m c 0) + tileSum m c 1) + tileSum m c 2) + tileSum m c 3 := by
    refine (acc_step m c 2 three_lt 3 rfl y).trans ?_
    refine congrArg (· + tileSum m c 3) ?_
    refine (acc_step m c 1 _ 2 rfl y).trans ?_
    refine congrArg (· + tileSum m c 2) ?_
    refine (acc_step m c 0 _ 1 rfl y).trans ?_
    refine congrArg (· + tileSum m c 1) ?_
    exact acc_zero m c _ y
  rw [e, fold_four (tileSum m c)]
  unfold total tileSum
  exact (sum_batch_by_tile (M := EReal)
    (fun i => term (m ((c : Thread nD τ).loc main_arg0) i) (m ((c : Thread nD τ).loc main_arg1) i))).symm

/-- THE KERNEL'S RESULT: the one-entry block holds the loss of the two argument arrays. -/
theorem lossCell_apply (c : Dev nD) (y : S1x1.Idx) :
    lossCell m c y = loss (m ((c : Thread nD τ).loc main_arg0)) (m ((c : Thread nD τ).loc main_arg1)) := by
  show k0_pay3 (accAfter m c 3 three_lt) y = _
  rw [closing_apply, acc_last, zero_sub_ereal]
  rfl

/-- Viewed as a scalar it is that number. -/
theorem result_apply (c : Dev nD) (i : S_.Idx) :
    shapeCast S_ (lossCell m c) shapeCasts_S1x1_S_ i
      = loss (m ((c : Thread nD τ).loc main_arg0)) (m ((c : Thread nD τ).loc main_arg1)) := by
  rw [shapeCast_at, lossCell_apply]

end Cert.KernelIdeal.LossValue

end
-- ==== Proof.RefValue.lean ====
/-
  The reference's result is the loss.

  The reference takes the logarithm of every student probability, multiplies by the teacher's weight, adds all
  4096 × 1000 products onto zero, divides by 4096.0 and negates: read one operation at a time at the extended reals
  that is `-( (0 + total) / 4096 )`, the specification's loss.
-/
import proofs.«175357_j41652592836938_1_alg».proof.Proof.Gen.ReferenceIdeal.Run
import proofs.«175357_j41652592836938_1_alg».proof.Proof.Gen.ReferenceIdeal.Read
import proofs.«175357_j41652592836938_1_alg».proof.Proof.LossSpec
import Idealize.ShloMosaic.PureOps.Ideal.Laws

noncomputable section

open Idealize.ShloMosaic

namespace Cert.ReferenceIdeal.RefValue

open Cert.ReferenceIdeal Cert.ReferenceIdeal.Gen Cert.ReferenceIdeal.Read SoftLabelLoss

/-- The reference run's result term, at its one scalar position, is the loss of its two argument arrays. -/
theorem result_eq (x0 x1 : (⟨S4096x1000, .f32⟩ : BufTy).Contents (Elt Ideal)) (i : S_.Idx) :
    Host.negf (F := Ideal) (Host.divf (F := Ideal) (Host.reduceAdd (F := Ideal) (mulf (x1) (Host.log (F := Ideal) (x0))) (constant (F := Ideal) S_ .f32 0x00000000#32) reducesTo_S4096x1000_S_d0_1 h_S_) (constant (F := Ideal) S_ .f32 0x45800000#32)) i
      = loss x0 x1 := by
  rw [val_main_v4_eq, val_main_v4_apply, val_main_v3_apply, val_main_v2_apply, val_main_cst_apply, val_main_cst_0_apply]
  show -(Ideal.div (Ideal.ofBits .f32 0x00000000#32 + ∑ j, val_main_v1 (F := Ideal) x0 x1 j) (Ideal.ofBits .f32 0x45800000#32)) = _
  rw [Ideal.ofBits_zero_f32, zero_add]
  unfold loss total
  exact congrArg (fun z => -(Ideal.div z batchSize)) (Finset.sum_congr rfl fun j _ => rfl)

end Cert.ReferenceIdeal.RefValue

end
-- ==== Proof.lean ====
/-
  A soft-label cross-entropy loss, accumulated tile by tile on the chip, against the same loss written in one line.

  Both programs take student probabilities s and teacher weights t, each 4096 × 1000, and return the scalar
      L = -( (∑ over all (b, c) of t[b,c] · log s[b,c]) / 4096 ).
  The reference computes it whole. The kernel walks four tiles of 1024 rows: a one-entry scratch cell is set to zero
  at the first tile, each tile adds its own total of t · log s to it, and after the last tile 0 - cell / 4096 is
  written to the one-entry result, which the host then views as a scalar.

  At the extended reals the two are the same number on every input: the logarithm is one function on both sides,
  the divisor is the same word, zero minus x is minus x, and a sum may be taken in any grouping because addition
  there is commutative and associative everywhere, the infinities included. The precondition (finite inputs) is
  therefore never opened.

  The three programs run and leave their arguments unchanged: for the two kernel programs that is the frame of the
  pipelined region; for the reference it is its run with the result dropped. The idealization rewrote nothing, so
  there is nothing to preserve.
-/
import proofs.«175357_j41652592836938_1_alg».proof.Defs
import proofs.«175357_j41652592836938_1_alg».proof.Proof.Gen.Kernel
import proofs.«175357_j41652592836938_1_alg».proof.Proof.Gen.Kernel.Skeleton
import proofs.«175357_j41652592836938_1_alg».proof.Proof.Gen.Kernel.Launch
import proofs.«175357_j41652592836938_1_alg».proof.Proof.Gen.Kernel.Points
import proofs.«175357_j41652592836938_1_alg».proof.Proof.Gen.Kernel.Frame
import proofs.«175357_j41652592836938_1_alg».proof.Proof.Gen.KernelIdeal
import proofs.«175357_j41652592836938_1_alg».proof.Proof.Gen.KernelIdeal.Skeleton
import proofs.«175357_j41652592836938_1_alg».proof.Proof.Gen.KernelIdeal.Launch
import proofs.«175357_j41652592836938_1_alg».proof.Proof.Gen.KernelIdeal.Points
import proofs.«175357_j41652592836938_1_alg».proof.Proof.Gen.KernelIdeal.Frame
import proofs.«175357_j41652592836938_1_alg».proof.Proof.Gen.ReferenceIdeal
import proofs.«175357_j41652592836938_1_alg».proof.Proof.Gen.ReferenceIdeal.Run
import proofs.«175357_j41652592836938_1_alg».proof.Proof.Gen.Pre_finite_inputs
import proofs.«175357_j41652592836938_1_alg».proof.Proof.LossValue
import proofs.«175357_j41652592836938_1_alg».proof.Proof.RefValue
import Idealize.ShloMosaic.Adequacy
import Idealize.ShloMosaic.Init

noncomputable section

namespace Cert.Proof

open Idealize.ShloMosaic Idealize.SL.Sem

/-- Both idealized programs end at the loss of the (agreeing) argument arrays: the kernel by its run read tile by
    tile, the reference by its run read operation by operation. -/
theorem algebraic [hKernelIdeal : Cert.KernelIdeal.Facts] [hReferenceIdeal : Cert.ReferenceIdeal.Facts]
    [hPre_finite_inputs : Cert.Pre_finite_inputs.Facts] : Cert.algebraic_KernelIdeal_ReferenceIdeal := by
  intro m ρ m' ρ' _ hagree
  refine ⟨fun c _ => SoftLabelLoss.loss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun _ h c => ⟨(h c).1.trans ?_, (h c).2⟩)
      (Cert.KernelIdeal.RunningSum.run (F := Ideal) m ρ)
    funext i
    exact Cert.KernelIdeal.LossValue.result_apply m c i
  · refine (θ_run Cert.ReferenceIdeal.defs _ _).mono (fun _ h c => ⟨(h c).1.trans ?_, (h c).2⟩)
      (Cert.ReferenceIdeal.Value.run (F := Ideal) m' ρ')
    funext i
    rw [(hagree c).1, (hagree c).2]
    exact Cert.ReferenceIdeal.RefValue.result_eq _ _ i

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
